-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1000000 : Shape := ⟨1, ![1000000]⟩
abbrev S128x256 : Shape := ⟨2, ![128, 256]⟩
abbrev S1x128 : Shape := ⟨2, ![1, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S50000x128 .f32) (main_arg1 : IVec S1000000 32) (main_arg2 : IVec S1000000 32) (main_arg3 : FVec F S128x256 .f32) (main_arg4 : FVec F S1x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S50000x128 : Shape := ⟨2, ![50000, 128]⟩
abbrev S1000000 : Shape := ⟨1, ![1000000]⟩
abbrev S128x256 : Shape := ⟨2, ![128, 256]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S256x128 : Shape := ⟨2, ![256, 128]⟩
abbrev S128x1 : Shape := ⟨2, ![128, 1]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 29
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S1000000, .i32⟩
  | .hbm, ⟨2, _⟩ => ⟨S1000000, .i32⟩
  | .hbm, ⟨3, _⟩ => ⟨S128x256, .f32⟩
  | .hbm, ⟨4, _⟩ => ⟨S1x128, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x128, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S256x128, .f32⟩
  | .hbm, ⟨24, _⟩ => ⟨S256x128, .bf16⟩
  | .hbm, ⟨25, _⟩ => ⟨S128x1, .f32⟩
  | .hbm, ⟨26, _⟩ => ⟨S128x1, .bf16⟩
  | .hbm, ⟨27, _⟩ => ⟨S1000000x128, .f32⟩
  | .hbm, ⟨28, _⟩ => ⟨S1000000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .bf16⟩
  | .local _ .vmem, ⟨5, _⟩ => ⟨S128x1, .bf16⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S128x256_S256x128_1_0 : S128x256.Transposes [1, 0] S256x128
  bitsLt_bf16_f32 : FTy.bits .bf16 < FTy.bits .f32
  transposes_S1x128_S128x1_1_0 : S1x128.Transposes [1, 0] S128x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5000x1_S5000x1_0_0 : ∀ a, (![0, 0] : Fin 2 → Nat) a + S5000x1.size a ≤ S5000x1.size a
  h_S5000x1 : 0 < S5000x1.numel
  gather_S50000x128_S1000000x1_S1000000x128_1_0_n_n_0_1_1128_wf : GatherDims.WF S50000x128 S1000000x1 S1000000x128 [1] [0] [] [0] [] 1 ![1, 128]
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S1000000x128.size a
  hwx0_1 : ∀ i : grid0.Coords, EltTy.bits .f32 = 32 ∨ (Rect.block (s := S1000000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .bf16 = 32 ∨ (Rect.block (s := S128x1) S128x1.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S1000000x128.size a
  hwx0_4 : ∀ i : grid0.Coords, EltTy.bits .f32 = 32 ∨ (Rect.block (s := S1000000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S1000000x1.size a
  hwx0_5 : ∀ i : grid0.Coords, EltTy.bits .f32 = 32 ∨ (Rect.block (s := S1000000x1) S5000x1.size (cc0_transform_5 i) (hinb0_5 i)).WholeWords (EltTy.packing .f32)

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S5000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S1000000 : Shape := ⟨1, ![1000000]⟩
abbrev S128x256 : Shape := ⟨2, ![128, 256]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1000000, .i32⟩
  | .hbm, ⟨2, _⟩ => ⟨S1000000, .i32⟩
  | .hbm, ⟨3, _⟩ => ⟨S128x256, .f32⟩
  | .hbm, ⟨4, _⟩ => ⟨S1x128, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x128, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S1000000x256, .f32⟩
  | .hbm, ⟨24, _⟩ => ⟨S1000000x128, .f32⟩
  | .hbm, ⟨25, _⟩ => ⟨S_, .f32⟩
  | .hbm, ⟨26, _⟩ => ⟨S1000000x128, .f32⟩
  | .hbm, ⟨27, _⟩ => ⟨S1000000x128, .f32⟩
  | .hbm, ⟨28, _⟩ => ⟨S1000000x1, .f32⟩
  | .hbm, ⟨29, _⟩ => ⟨S_, .f32⟩
  | .hbm, ⟨30, _⟩ => ⟨S_, .f32⟩
  | .hbm, ⟨31, _⟩ => ⟨S1000000x1, .f32⟩
  | .hbm, ⟨32, _⟩ => ⟨S1000000x1, .i1⟩
  | .hbm, ⟨33, _⟩ => ⟨S_, .f32⟩
  | .hbm, ⟨34, _⟩ => ⟨S1000000x1, .f32⟩
  | .hbm, ⟨35, _⟩ => ⟨S1000000x1, .f32⟩
  | .hbm, ⟨36, _⟩ => ⟨S1000000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v18 : Ref sig .tc := ⟨.hbm, 36, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S_S1000000x128 : S_.BroadcastsInDim S1000000x128 (![] : Fin 0 → Fin S1000000x128.rank)
  bcast_S_S1000000x1 : S_.BroadcastsInDim S1000000x1 (![] : Fin 0 → Fin S1000000x1.rank)
  gather_S50000x128_S1000000x1_S1000000x128_1_0_n_n_0_1_1128_wf : GatherDims.WF S50000x128 S1000000x1 S1000000x128 [1] [0] [] [0] [] 1 ![1, 128]
  dot_S1000000x256_S128x256_S1000000x128_1_1_0_0_n_n_wf : DotDims.WF S1000000x256 S128x256 S1000000x128 [1] [1] [0] [0] [] []
  dot_S1000000x128_S1x128_S1000000x1_1_1_0_0_n_n_wf : DotDims.WF S1000000x128 S1x128 S1000000x1 [1] [1] [0] [0] [] []

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S128x256_S1000000x128_1_1_0_0_n_n : DotDims S1000000x256 S128x256 S1000000x128 where
  lhsContracting := [1]
  rhsContracting := [1]
  lhsNonContracting := [0]
  rhsNonContracting := [0]
  lhsBatch := []
  rhsBatch := []
  wf := dot_S1000000x256_S128x256_S1000000x128_1_1_0_0_n_n_wf
def dot_S1000000x128_S1x128_S1000000x1_1_1_0_0_n_n : DotDims S1000000x128 S1x128 S1000000x1 where
  lhsContracting := [1]
  rhsContracting := [1]
  lhsNonContracting := [0]
  rhsNonContracting := [0]
  lhsBatch := []
  rhsBatch := []
  wf := dot_S1000000x128_S1x128_S1000000x1_1_1_0_0_n_n_wf

class Facts : Prop extends Facts₀ where

variable [Facts]
-- ==== Proof.Spec.lean ====
/-
  The edge network, written once as mathematics over the extended reals.

  For an edge `e` the feature row is the source node's 128 features followed by the destination node's 128
  features (`featAt`). The edge layer is `relu (feat · Wᵀ)`: entry `(e, o)` is the maximum of zero and the sum over
  the 256 feature positions `k` of `feat e k * W o k` (`edgeF`). The attention logit of edge `e` is the sum over the
  128 outputs `o` of `edgeF (e, o) * A 0 o` (`attnPre`), and the attention factor is its leaky rectification with
  slope `c`: the logit itself where it is positive, `c` times it elsewhere (`attnF`).

  One law is proved here: the rectification may test `0 ≤ a` and multiply on the left, or test `0 < a` and multiply on
  the right; the two differ only at `a = 0`, where both give `0`.
-/
import Idealize.ShloMosaic.PureOps.Ideal
import Idealize.ShloMosaic.PureOps.Ideal.Laws
import Idealize.ShloMosaic.Lib.ValueIdx

noncomputable section

open scoped BigOperators

namespace EdgeNet

open Idealize.ShloMosaic Idealize.ShloMosaic.ValueIdx

/-- The slope of the leaky rectification: the binary32 word both programs print for `0.01`. -/
abbrev slope : EReal := Ideal.ofBits .f32 0x3C23D70A#32

/-- Position `k` of edge `e`'s feature row: the source row below 128, the destination row from 128 on. -/
def featAt (src dst : (⟨2, ![1000000, 128]⟩ : Shape).Idx → EReal) (e : Fin 1000000) (k : Fin 256) : EReal :=
  if h : k.val < 128 then src (ix2 e ⟨k.val, h⟩) else dst (ix2 e ⟨k.val - 128, by have := k.isLt; omega⟩)

/-- The edge layer: `max 0 (∑ k, feat e k * W o k)`. -/
def edgeF (src dst : (⟨2, ![1000000, 128]⟩ : Shape).Idx → EReal) (W : (⟨2, ![128, 256]⟩ : Shape).Idx → EReal) :
    (⟨2, ![1000000, 128]⟩ : Shape).Idx → EReal :=
  fun i => max (∑ k : Fin 256, featAt src dst (i 0) k * W (ix2 (i 1) k)) 0

/-- The attention logit of an edge: `∑ o, edgeF (e, o) * A 0 o`. -/
def attnPre (E : (⟨2, ![1000000, 128]⟩ : Shape).Idx → EReal) (A : (⟨2, ![1, 128]⟩ : Shape).Idx → EReal)
    (e : Fin 1000000) : EReal :=
  ∑ o : Fin 128, E (ix2 e o) * A (ix2 0 o)

/-- A leaky rectification with the test `0 < a` and the slope on the right. -/
def leaky (a : EReal) : EReal := Scalar.select (Ideal.cmp .ogt a 0) a (a * slope)

/-- The attention factor: the leaky rectification of the logit. -/
def attnF (E : (⟨2, ![1000000, 128]⟩ : Shape).Idx → EReal) (A : (⟨2, ![1, 128]⟩ : Shape).Idx → EReal) :
    (⟨2, ![1000000, 1]⟩ : Shape).Idx → EReal :=
  fun i => leaky (attnPre E A (i 0))

/-- The rectification with the test `0 ≤ a` and the slope on the left is the same number: the two tests differ only
    at `a = 0`, where `a` and `a * slope` are both `0`. -/
theorem leaky_ge_left (a : EReal) : Scalar.select (Ideal.cmp .oge a 0) a (slope * a) = leaky a := by
  unfold leaky Scalar.select Ideal.cmp
  by_cases h : (0 : EReal) < a
  · have h' : (0 : EReal) ≤ a := le_of_lt h
    simp [h, h']
  · by_cases h0 : a = 0
    · subst h0; simp
    · have h' : ¬ (0 : EReal) ≤ a := fun hle => h (lt_of_le_of_ne hle (Ne.symm h0))
      simp [h, h', mul_comm]

end EdgeNet

end
-- ==== Proof.KernelBody.lean ====
/-
  The kernel body's arithmetic read at one entry, at the ideal instance.

  The body concatenates the source and destination feature blocks along the feature axis, multiplies the 5000 × 256
  result by the 256 × 128 weight block into a zero accumulator and takes the maximum with zero; it then multiplies that
  5000 × 128 result by the 128 × 1 attention column into a zero accumulator and rectifies with slope `c`. Read at an entry,
  a product into a zero accumulator is the plain sum over the contracted axis of the operands' products (the format
  changes are the identity on extended reals), and position `k` of a concatenated row is the first piece's entry below
  128 and the second piece's from 128 on.
-/
import proofs.«136358_j712964571355_1_alg».proof.Proof.Gen.KernelIdeal.Skeleton
import proofs.«136358_j712964571355_1_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ### The two products' index maps, coordinate by coordinate -/

abbrev D₁ := dot_S5000x256_S256x128_S5000x128_1_0_0_1_n_n
abbrev D₂ := dot_S5000x128_S128x1_S5000x1_1_0_0_1_n_n

theorem lhs₁_0 (j : S5000x128.Idx) (k : D₁.contr.Idx) : (D₁.lhsIdx j k 0 : ℕ) = j 0 := by
  simp [DotDims.lhsIdx, D₁, dot_S5000x256_S256x128_S5000x128_1_0_0_1_n_n]; rfl
theorem lhs₁_1 (j : S5000x128.Idx) (k : D₁.contr.Idx) : (D₁.lhsIdx j k 1 : ℕ) = k ⟨0, by decide⟩ := by
  simp [DotDims.lhsIdx, D₁, dot_S5000x256_S256x128_S5000x128_1_0_0_1_n_n]; rfl
theorem rhs₁_0 (j : S5000x128.Idx) (k : D₁.contr.Idx) : (D₁.rhsIdx j k 0 : ℕ) = k ⟨0, by decide⟩ := by
  simp [DotDims.rhsIdx, D₁, dot_S5000x256_S256x128_S5000x128_1_0_0_1_n_n]; rfl
theorem rhs₁_1 (j : S5000x128.Idx) (k : D₁.contr.Idx) : (D₁.rhsIdx j k 1 : ℕ) = j 1 := by
  simp [DotDims.rhsIdx, D₁, dot_S5000x256_S256x128_S5000x128_1_0_0_1_n_n]; rfl

theorem lhs₂_0 (j : S5000x1.Idx) (k : D₂.contr.Idx) : (D₂.lhsIdx j k 0 : ℕ) = j 0 := by
  simp [DotDims.lhsIdx, D₂, dot_S5000x128_S128x1_S5000x1_1_0_0_1_n_n]; rfl
theorem lhs₂_1 (j : S5000x1.Idx) (k : D₂.contr.Idx) : (D₂.lhsIdx j k 1 : ℕ) = k ⟨0, by decide⟩ := by
  simp [DotDims.lhsIdx, D₂, dot_S5000x128_S128x1_S5000x1_1_0_0_1_n_n]; rfl
theorem rhs₂_0 (j : S5000x1.Idx) (k : D₂.contr.Idx) : (D₂.rhsIdx j k 0 : ℕ) = k ⟨0, by decide⟩ := by
  simp [DotDims.rhsIdx, D₂, dot_S5000x128_S128x1_S5000x1_1_0_0_1_n_n]; rfl
theorem rhs₂_1 (j : S5000x1.Idx) (k : D₂.contr.Idx) : (D₂.rhsIdx j k 1 : ℕ) = j 1 := by
  have h1 := idx2_lt1 j
  have h2 := (D₂.rhsIdx j k 1).isLt
  have h3 : (D₂.rhsIdx j k 1 : ℕ) < 1 := h2
  omega

/-- The first product at entry `(r, o)`: the sum over the 256 positions `k` of `L (r, k) * R (k, o)`. -/
theorem matmul₁_apply (L : FVec Ideal S5000x256 .bf16) (R : FVec Ideal S256x128 .bf16) (r : Fin 5000) (o : Fin 128) :
    matmul D₁ none L R (constant S5000x128 .f32 0x00000000#32) (ix2 r o) = ∑ k : Fin 256, L (ix2 r k) * R (ix2 k o) := by
  simp only [matmul]
  rw [Ideal.matmul_constant_zero_apply, ← Equiv.sum_comp (contrEquiv1 D₁ 256 rfl rfl).symm]
  refine Finset.sum_congr rfl fun k _ => ?_
  congr 2
  · funext a
    match a with
    | ⟨0, _⟩ => exact Fin.ext (lhs₁_0 _ _)
    | ⟨1, _⟩ => exact Fin.ext ((lhs₁_1 _ _).trans (contrEquiv1_symm_val D₁ 256 rfl rfl k))
  · funext a
    match a with
    | ⟨0, _⟩ => exact Fin.ext ((rhs₁_0 _ _).trans (contrEquiv1_symm_val D₁ 256 rfl rfl k))
    | ⟨1, _⟩ => exact Fin.ext (rhs₁_1 _ _)

/-- The second product at entry `(r, 0)`: the sum over the 128 positions `k` of `L (r, k) * R (k, 0)`. -/
theorem matmul₂_apply (L : FVec Ideal S5000x128 .bf16) (R : FVec Ideal S128x1 .bf16) (r : Fin 5000) (z : Fin 1) :
    matmul D₂ none L R (constant S5000x1 .f32 0x00000000#32) (ix2 r z) = ∑ k : Fin 128, L (ix2 r k) * R (ix2 k z) := by
  simp only [matmul]
  rw [Ideal.matmul_constant_zero_apply, ← Equiv.sum_comp (contrEquiv1 D₂ 128 rfl rfl).symm]
  refine Finset.sum_congr rfl fun k _ => ?_
  congr 2
  · funext a
    match a with
    | ⟨0, _⟩ => exact Fin.ext (lhs₂_0 _ _)
    | ⟨1, _⟩ => exact Fin.ext ((lhs₂_1 _ _).trans (contrEquiv1_symm_val D₂ 128 rfl rfl k))
  · funext a
    match a with
    | ⟨0, _⟩ => exact Fin.ext ((rhs₂_0 _ _).trans (contrEquiv1_symm_val D₂ 128 rfl rfl k))
    | ⟨1, _⟩ => exact Fin.ext (rhs₂_1 _ _)

/-! ### The body's two stored values at an entry -/

/-- Position `k` of row `r` of two 128-wide blocks set side by side: the first block's entry below 128, the
    second block's from 128 on. -/
def catRow (x0 x1 : FVec Ideal S5000x128 .f32) (r : Fin 5000) (k : Fin 256) : EReal :=
  if h : k.val < 128 then x0 (ix2 r ⟨k.val, h⟩) else x1 (ix2 r ⟨k.val - 128, by have := k.isLt; omega⟩)

/-- The concatenation of two blocks along the feature axis, read at `(r, k)`. -/
theorem concat_apply (x0 x1 : FVec Ideal S5000x128 .f32) (r : Fin 5000) (k : Fin 256) :
    concatenate S5000x256 1 [⟨S5000x128, x0⟩, ⟨S5000x128, x1⟩] concatenates_S5000x128_S5000x128_S5000x256_d1 (ix2 r k)
      = catRow x0 x1 r k := by
  unfold catRow
  by_cases h : k.val < 128
  · rw [dif_pos h]
    exact concatenate_pair_apply_left 1 x0 x1 _ (ix2 r k) rfl (ix2 r ⟨k.val, h⟩)
      (fun b => match b with | ⟨0, _⟩ => rfl | ⟨1, _⟩ => rfl)
  · rw [dif_neg h]
    exact concatenate_pair_apply_right 1 x0 x1 _ (ix2 r k) rfl rfl (ix2 r ⟨k.val - 128, by have := k.isLt; omega⟩)
      (fun b hb => match b, hb with | ⟨0, _⟩, _ => rfl | ⟨1, _⟩, hb => (hb (Fin.ext rfl)).elim)
      (by show (k.val - 128) + 128 = k.val; omega)

/-- The edge block at `(r, o)`: the maximum of zero and the sum over the 256 positions of the concatenated row times
    the weight block's column. -/
theorem pay1_apply (x0 x1 : Vec Ideal S5000x128 .f32) (w : Vec Ideal S256x128 .bf16) (r : Fin 5000) (o : Fin 128) :
    k0_pay1 x0 x1 w (ix2 r o) = max (∑ k : Fin 256, catRow x0 x1 r k * w (ix2 k o)) 0 := by
  unfold k0_pay1
  simp only [shapeCast_self]
  show max (matmul D₁ none _ _ (constant S5000x128 .f32 0x00000000#32) (ix2 r o)) (Ideal.ofBits .f32 0x00000000#32) = _
  rw [matmul₁_apply, Ideal.ofBits_zero_f32]
  refine congrArg (max · 0) (Finset.sum_congr rfl fun k _ => ?_)
  show concatenate S5000x256 1 [⟨S5000x128, shapeCast S5000x128 x0 shapeCasts_S5000x128_S5000x128⟩,
      ⟨S5000x128, shapeCast S5000x128 x1 shapeCasts_S5000x128_S5000x128⟩] concatenates_S5000x128_S5000x128_S5000x256_d1 (ix2 r k) * w (ix2 k o) = _
  rw [concat_apply, shapeCast_self, shapeCast_self]

/-- The attention block at `(r, 0)`: the leaky rectification of the sum over the 128 outputs of the edge block's row
    times the attention column. -/
theorem pay2_apply (x0 x1 : Vec Ideal S5000x128 .f32) (w : Vec Ideal S256x128 .bf16) (a : Vec Ideal S128x1 .bf16)
    (r : Fin 5000) (z : Fin 1) :
    k0_pay2 x0 x1 w a (ix2 r z) = EdgeNet.leaky (∑ o : Fin 128, k0_pay1 x0 x1 w (ix2 r o) * a (ix2 o z)) := by
  unfold k0_pay2
  simp only [shapeCast_self]
  show Scalar.select (Ideal.cmp .ogt (matmul (F := Ideal) D₂ none _ _ (constant S5000x1 .f32 0x00000000#32) (ix2 r z)) (Ideal.ofBits .f32 0x00000000#32))
      (matmul (F := Ideal) D₂ none _ _ (constant S5000x1 .f32 0x00000000#32) (ix2 r z))
      (matmul (F := Ideal) D₂ none _ _ (constant S5000x1 .f32 0x00000000#32) (ix2 r z) * Ideal.ofBits .f32 0x3C23D70A#32) = _
  rw [matmul₂_apply, Ideal.ofBits_zero_f32]
  rfl

end Cert.KernelIdeal.Body

end
-- ==== Proof.KernelValue.lean ====
/-
  What the kernel's two result arrays hold after the run, at the ideal instance.

  The grid has 200 points; point `t` stages rows `5000 t … 5000 t + 4999` of the two gathered arrays, the whole
  transposed weight arrays, and writes back rows `5000 t …` of the two results. So entry `(5000 t + r, o)` of the first
  result is the body's edge block at `(r, o)`, whose concatenated row is row `5000 t + r` of the gathered arrays: the
  array is one function `GE` of the arrays the region finds, and likewise the second result is `GA`. The 200 blocks
  cover every row (`row / 5000` is the point). Before the region the host gathers the node rows at the two wrapped
  index arrays and transposes the two weight arrays; a transposed weight read at `(k, o)` is the weight at `(o, k)`,
  which turns `GE` and `GA` into the edge network's functions of the arguments.
-/
import proofs.«136358_j712964571355_1_alg».proof.Proof.Gen.KernelIdeal.Value
import proofs.«136358_j712964571355_1_alg».proof.Proof.KernelBody
import Idealize.ShloMosaic.Lib.StableHlo.Run
import Idealize.ShloMosaic.Lib.ValueLayout

noncomputable section

open scoped BigOperators

namespace Cert.KernelIdeal.EdgeValue

open Cert.KernelIdeal Cert.KernelIdeal.Gen Cert.KernelIdeal.Body Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ### The arrays the region finds, and the results as whole-array functions of them -/

abbrev srcArr (c : Dev nD) : FVec Ideal S1000000x128 .f32 := V m c main_v6
abbrev dstArr (c : Dev nD) : FVec Ideal S1000000x128 .f32 := V m c main_v13
abbrev wArr (c : Dev nD) : FVec Ideal S256x128 .bf16 := V m c main_v15
abbrev aArr (c : Dev nD) : FVec Ideal S128x1 .bf16 := V m c main_v17

/-- The first result over the transposed weights: `max 0 (∑ k, feat e k * w k o)`. -/
def GE (src dst : FVec Ideal S1000000x128 .f32) (w : FVec Ideal S256x128 .bf16) : FVec Ideal S1000000x128 .f32 :=
  fun i => max (∑ k : Fin 256, EdgeNet.featAt src dst (i 0) k * w (ix2 k (i 1))) 0

/-- The second result over the transposed weights: the leaky rectification of `∑ o, GE (e, o) * a o 0`. -/
def GA (src dst : FVec Ideal S1000000x128 .f32) (w : FVec Ideal S256x128 .bf16) (a : FVec Ideal S128x1 .bf16) :
    FVec Ideal S1000000x1 .f32 :=
  fun i => EdgeNet.leaky (∑ o : Fin 128, GE src dst w (ix2 (i 0) o) * a (ix2 o (i 1)))

/-! ### Where each window's block sits -/

/-- The printed index maps over the grid: the row windows move with the point, the weight windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `r` of point `t`'s block is row `5000 t + r` of the array. -/
def row (t : Fin cfg0.N) (r : Fin 5000) : Fin 1000000 :=
  ⟨t.val * 5000 + r.val, by have ht : t.val < 200 := t.isLt; have := r.isLt; omega⟩

theorem src_blk (c : Dev nD) (t : Fin cfg0.N) (r : Fin 5000) (k : Fin 128) :
    iblk m c 0 t (ix2 r k) = srcArr m c (ix2 (row t r) k) := by
  obtain ⟨e0, e1, -⟩ := idx_facts t
  show V m c main_v6 (((cfg0.win 0).blk t).view.emb (ix2 r k)) = V m c main_v6 (ix2 (row t r) k)
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

theorem dst_blk (c : Dev nD) (t : Fin cfg0.N) (r : Fin 5000) (k : Fin 128) :
    iblk m c 1 t (ix2 r k) = dstArr m c (ix2 (row t r) k) := by
  obtain ⟨-, -, e0, e1, -⟩ := idx_facts t
  show V m c main_v13 (((cfg0.win 1).blk t).view.emb (ix2 r k)) = V m c main_v13 (ix2 (row t r) k)
  refine congrArg _ (funext fun a => Fin.ext ?_)
  match a with
  | ⟨0, _⟩ => show win0_1.index t (0 : Fin 2) * 5000 + 1 * r.val = t.val * 5000 + r.val; omega
  | ⟨1, _⟩ => show win0_1.index t (1 : Fin 2) * 128 + 1 * k.val = k.val; omega

theorem w_blk (c : Dev nD) (t : Fin cfg0.N) (k : Fin 256) (o : Fin 128) :
    iblk m c 2 t (ix2 k o) = wArr m c (ix2 k o) := by
  obtain ⟨-, -, -, -, e0, e1, -⟩ := idx_facts t
  show V m c main_v15 (((cfg0.win 2).blk t).view.emb (ix2 k o)) = V m c main_v15 (ix2 k o)
  refine congrArg _ (funext fun a => Fin.ext ?_)
  match a with
  | ⟨0, _⟩ => show win0_2.index t (0 : Fin 2) * 256 + 1 * k.val = k.val; omega
  | ⟨1, _⟩ => show win0_2.index t (1 : Fin 2) * 128 + 1 * o.val = o.val; omega

theorem a_blk (c : Dev nD) (t : Fin cfg0.N) (o : Fin 128) (z : Fin 1) :
    iblk m c 3 t (ix2 o z) = aArr m c (ix2 o z) := by
  obtain ⟨-, -, -, -, -, -, e0, e1, -⟩ := idx_facts t
  show V m c main_v17 (((cfg0.win 3).blk t).view.emb (ix2 o z)) = V m c main_v17 (ix2 o z)
  refine congrArg _ (funext fun a => Fin.ext ?_)
  match a with
  | ⟨0, _⟩ => show win0_3.index t (0 : Fin 2) * 128 + 1 * o.val = o.val; omega
  | ⟨1, _⟩ => show win0_3.index t (1 : Fin 2) * 1 + 1 * z.val = z.val; omega

theorem emb4 (t : Fin cfg0.N) (r : Fin 5000) (o : Fin 128) :
    ((cfg0.win 4).blk t).view.emb (ix2 r o) = ix2 (row t r) o := by
  obtain ⟨-, -, -, -, -, -, -, -, e0, e1, -⟩ := idx_facts t
  refine funext fun a => Fin.ext ?_
  match a with
  | ⟨0, _⟩ => show win0_4.index t (0 : Fin 2) * 5000 + 1 * r.val = t.val * 5000 + r.val; omega
  | ⟨1, _⟩ => show win0_4.index t (1 : Fin 2) * 128 + 1 * o.val = o.val; omega

theorem emb5 (t : Fin cfg0.N) (r : Fin 5000) (z : Fin 1) :
    ((cfg0.win 5).blk t).view.emb (ix2 r z) = ix2 (row t r) z := by
  obtain ⟨-, -, -, -, -, -, -, -, -, -, e0, e1⟩ := idx_facts t
  refine funext fun a => Fin.ext ?_
  match a with
  | ⟨0, _⟩ => show win0_5.index t (0 : Fin 2) * 5000 + 1 * r.val = t.val * 5000 + r.val; omega
  | ⟨1, _⟩ => show win0_5.index t (1 : Fin 2) * 1 + 1 * z.val = z.val; omega

/-! ### What a point computes is the whole-array function at its rows -/

/-- The concatenated block row is the feature row of array row `5000 t + r`. -/
theorem catRow_blk (c : Dev nD) (t : Fin cfg0.N) (r : Fin 5000) (k : Fin 256) :
    catRow (iblk m c 0 t) (iblk m c 1 t) r k = EdgeNet.featAt (srcArr m c) (dstArr m c) (row t r) k := by
  unfold catRow EdgeNet.featAt
  by_cases h : k.val < 128
  · rw [dif_pos h, dif_pos h]; exact src_blk m c t r _
  · rw [dif_neg h, dif_neg h]; exact dst_blk m c t r _

/-- The edge block at `(r, o)` is `GE` at `(5000 t + r, o)`. -/
theorem edge_blk (c : Dev nD) (t : Fin cfg0.N) (r : Fin 5000) (o : Fin 128) :
    k0_pay1 (iblk m c 0 t) (iblk m c 1 t) (iblk m c 2 t) (ix2 r o)
      = GE (srcArr m c) (dstArr m c) (wArr m c) (ix2 (row t r) o) := by
  refine (pay1_apply (iblk m c 0 t) (iblk m c 1 t) (iblk m c 2 t) r o).trans ?_
  unfold GE
  refine congrArg (max · 0) (Finset.sum_congr rfl fun k _ => ?_)
  rw [catRow_blk m c t r k, w_blk m c t k o]

/-- The attention block at `(r, 0)` is `GA` at `(5000 t + r, 0)`. -/
theorem attn_blk (c : Dev nD) (t : Fin cfg0.N) (r : Fin 5000) (z : Fin 1) :
    k0_pay2 (iblk m c 0 t) (iblk m c 1 t) (iblk m c 2 t) (iblk m c 3 t) (ix2 r z)
      = GA (srcArr m c) (dstArr m c) (wArr m c) (aArr m c) (ix2 (row t r) z) := by
  refine (pay2_apply (iblk m c 0 t) (iblk m c 1 t) (iblk m c 2 t) (iblk m c 3 t) r z).trans ?_
  unfold GA
  refine congrArg EdgeNet.leaky (Finset.sum_congr rfl fun o _ => ?_)
  rw [edge_blk m c t r o, a_blk m c t o z]

/-- What point `t` writes back to the first result is block `t` of `GE`. -/
theorem flushed4_eq (c : Dev nD) (t : Fin cfg0.N) :
    (dats m 0 c).flushed 4 t = ((cfg0.win 4).blk t).view.read (Elt Ideal) (GE (srcArr m c) (dstArr m c) (wArr m c)) := by
  rw [Cert.KernelIdeal.Value.flushed4]
  unfold out0_4
  rw [View.canon_unit_zero hz]
  simp only [View.ld_unit_zero (S := S5000x128) hz, View.ld_unit_zero (S := S256x128) hz]
  funext j
  obtain ⟨r, o, rfl⟩ : ∃ (r : Fin 5000) (o : Fin 128), j = ix2 r o := ⟨j 0, j 1, eq_ix2 j⟩
  show k0_pay1 (iblk m c 0 t) (iblk m c 1 t) (iblk m c 2 t) (ix2 r o)
    = GE (srcArr m c) (dstArr m c) (wArr m c) (((cfg0.win 4).blk t).view.emb (ix2 r o))
  rw [emb4 t r o]
  exact edge_blk m c t r o

/-- What point `t` writes back to the second result is block `t` of `GA`. -/
theorem flushed5_eq (c : Dev nD) (t : Fin cfg0.N) :
    (dats m 0 c).flushed 5 t
      = ((cfg0.win 5).blk t).view.read (Elt Ideal) (GA (srcArr m c) (dstArr m c) (wArr m c) (aArr m c)) := by
  rw [Cert.KernelIdeal.Value.flushed5]
  unfold out0_5
  rw [View.canon_unit_zero hz]
  simp only [View.ld_unit_zero (S := S5000x128) hz, View.ld_unit_zero (S := S256x128) hz, View.ld_unit_zero (S := S128x1) hz]
  funext j
  obtain ⟨r, z, rfl⟩ : ∃ (r : Fin 5000) (z : Fin 1), j = ix2 r z := ⟨j 0, j 1, eq_ix2 j⟩
  show k0_pay2 (iblk m c 0 t) (iblk m c 1 t) (iblk m c 2 t) (iblk m c 3 t) (ix2 r z)
    = GA (srcArr m c) (dstArr m c) (wArr m c) (aArr m c) (((cfg0.win 5).blk t).view.emb (ix2 r z))
  rw [emb5 t r z]
  exact attn_blk m c t r z

/-! ### The blocks cover the arrays -/

theorem mem_blk4 (t : Fin cfg0.N) (i : S1000000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v18_0).slice (win0_4.rect t)).set ↔ _
  rw [View.set_slice_whole, Rect.mem_set_unit]
  exact Iff.rfl

theorem mem_blk5 (t : Fin cfg0.N) (i : S1000000x1.Idx) :
    i ∈ ((cfg0.win 5).blk t).view.set ↔ ∀ a : Fin 2, win0_5.index t a * S5000x1.size a ≤ (i a).val ∧ (i a).val < win0_5.index t a * S5000x1.size a + S5000x1.size a := by
  show i ∈ ((View.whole main_v18_1).slice (win0_5.rect t)).set ↔ _
  rw [View.set_slice_whole, Rect.mem_set_unit]
  exact Iff.rfl

/-- Row `e` lies in the block of point `e / 5000`. -/
theorem cover4 (i : S1000000x128.Idx) :
    ∃ t : Fin cfg0.N, (cfg0.win 4).flush t = true ∧ i ∈ ((cfg0.win 4).blk t).view.set := by
  have hi0 : (i 0).val < 1000000 := idx2_lt0 i
  have hi1 : (i 1).val < 128 := idx2_lt1 i
  have ht : (i 0).val / 5000 < 200 := by omega
  obtain ⟨-, -, -, -, -, -, -, -, e0, e1, -⟩ := idx_facts ⟨(i 0).val / 5000, ht⟩
  have e0' : win0_4.index ⟨(i 0).val / 5000, ht⟩ (0 : Fin 2) = (i 0).val / 5000 := e0
  refine ⟨⟨(i 0).val / 5000, ht⟩, flush0_4 _, ?_⟩
  rw [mem_blk4]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    omega

theorem cover5 (i : S1000000x1.Idx) :
    ∃ t : Fin cfg0.N, (cfg0.win 5).flush t = true ∧ i ∈ ((cfg0.win 5).blk t).view.set := by
  have hi0 : (i 0).val < 1000000 := idx2_lt0 i
  have hi1 : (i 1).val < 1 := idx2_lt1 i
  have ht : (i 0).val / 5000 < 200 := by omega
  obtain ⟨-, -, -, -, -, -, -, -, -, -, e0, e1⟩ := idx_facts ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_blk5]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 1 ≤ (i 1).val ∧ (i 1).val < win0_5.index ⟨(i 0).val / 5000, ht⟩ (1 : Fin 2) * 1 + 1
    omega

/-- The first result after the run is `GE` of the arrays the region finds. -/
theorem final4 (c : Dev nD) : (dats m 0 c).arrAt 4 cfg0.N = GE (srcArr m c) (dstArr m c) (wArr m c) :=
  (dats m 0 c).arrAt_eq_of_cover 4 _ (fun t _ => flushed4_eq m c t) cover4

/-- The second result after the run is `GA` of the arrays the region finds. -/
theorem final5 (c : Dev nD) : (dats m 0 c).arrAt 5 cfg0.N = GA (srcArr m c) (dstArr m c) (wArr m c) (aArr m c) :=
  (dats m 0 c).arrAt_eq_of_cover 5 _ (fun t _ => flushed5_eq m c t) cover5

/-! ### The arrays the region finds, from the arguments -/

/-- Node rows taken at an index array: `50000` is added to a negative index, then whole rows are gathered. -/
def rows (nf : FVec Ideal S50000x128 .f32) (idx : IVec S1000000 32) : FVec Ideal S1000000x128 .f32 :=
  Host.gather gather_S50000x128_S1000000x1_S1000000x128_1_0_n_n_0_1_1128 nf
    (broadcastInDim S1000000x1 ![0] bcast_S1000000_S1000000x1_0
      (select (cmpi .slt idx (broadcastInDim S1000000 ![] bcast_S_S1000000 (constantI S_ 32 0#32)))
        (addi idx (broadcastInDim S1000000 ![] bcast_S_S1000000 (constantI S_ 32 50000#32))) idx))

attribute [local irreducible] Host.gather in
theorem srcArr_eq (c : Dev nD) : srcArr m c = rows (m ((c.tc : Thread nD τ).loc main_arg0)) (m ((c.tc : Thread nD τ).loc main_arg1)) := by
  show (V m c main_v6 : FVec Ideal S1000000x128 .f32) = _
  dsimp only [V, hostOps0]
  after_results
  rfl

attribute [local irreducible] Host.gather in
theorem dstArr_eq (c : Dev nD) : dstArr m c = rows (m ((c.tc : Thread nD τ).loc main_arg0)) (m ((c.tc : Thread nD τ).loc main_arg2)) := by
  show (V m c main_v13 : FVec Ideal S1000000x128 .f32) = _
  dsimp only [V, hostOps0]
  after_results
  rfl

theorem wArr_eq (c : Dev nD) : wArr m c
    = truncf .bf16 (transpose S256x128 [1, 0] (m ((c.tc : Thread nD τ).loc main_arg3) : FVec Ideal S128x256 .f32) transposes_S128x256_S256x128_1_0) bitsLt_bf16_f32 := by
  show (V m c main_v15 : FVec Ideal S256x128 .bf16) = _
  dsimp only [V, hostOps0]
  after_results

theorem aArr_eq (c : Dev nD) : aArr m c
    = truncf .bf16 (transpose S128x1 [1, 0] (m ((c.tc : Thread nD τ).loc main_arg4) : FVec Ideal S1x128 .f32) transposes_S1x128_S128x1_1_0) bitsLt_bf16_f32 := by
  show (V m c main_v17 : FVec Ideal S128x1 .bf16) = _
  dsimp only [V, hostOps0]
  after_results

/-! ### Over the transposed weights the two functions are the edge network's -/

theorem GE_eq (src dst : FVec Ideal S1000000x128 .f32) (W : FVec Ideal S128x256 .f32) :
    GE src dst (truncf .bf16 (transpose S256x128 [1, 0] W transposes_S128x256_S256x128_1_0) bitsLt_bf16_f32)
      = EdgeNet.edgeF src dst W := by
  funext i
  obtain ⟨e, o, rfl⟩ : ∃ (e : Fin 1000000) (o : Fin 128), i = ix2 e o := ⟨i 0, i 1, eq_ix2 i⟩
  show max (∑ k : Fin 256, EdgeNet.featAt src dst e k
        * (transpose S256x128 [1, 0] W transposes_S128x256_S256x128_1_0) (ix2 k o)) 0
      = max (∑ k : Fin 256, EdgeNet.featAt src dst e k * W (ix2 o k)) 0
  refine congrArg (max · 0) (Finset.sum_congr rfl fun k _ => ?_)
  exact congrArg (EdgeNet.featAt src dst e k * ·) (transpose_ix2_apply W transposes_S128x256_S256x128_1_0 k o)

theorem GA_eq (src dst : FVec Ideal S1000000x128 .f32) (w : FVec Ideal S256x128 .bf16) (A : FVec Ideal S1x128 .f32) :
    GA src dst w (truncf .bf16 (transpose S128x1 [1, 0] A transposes_S1x128_S128x1_1_0) bitsLt_bf16_f32)
      = EdgeNet.attnF (GE src dst w) A := by
  funext i
  obtain ⟨e, z, rfl⟩ : ∃ (e : Fin 1000000) (z : Fin 1), i = ix2 e z := ⟨i 0, i 1, eq_ix2 i⟩
  obtain rfl : z = 0 := Subsingleton.elim z 0
  show EdgeNet.leaky (∑ o : Fin 128, GE src dst w (ix2 e o)
        * (transpose S128x1 [1, 0] A transposes_S1x128_S128x1_1_0) (ix2 o 0))
      = EdgeNet.leaky (∑ o : Fin 128, GE src dst w (ix2 e o) * A (ix2 0 o))
  refine congrArg EdgeNet.leaky (Finset.sum_congr rfl fun o _ => ?_)
  exact congrArg (GE src dst w (ix2 e o) * ·) (transpose_ix2_apply A transposes_S1x128_S128x1_1_0 o 0)

/-! ### The run -/

/-- Every weakly fair execution of the kernel's program ends with the first result at the edge layer of the gathered
    rows and the second at its attention factor, the arguments unchanged. -/
theorem run : θ_run defs (onTc (τ := τ) (main (F := Ideal))) ⟨m, fun _ => 0, ρ⟩ fun r => ∀ c : Dev nD,
      r.2.mem ((c.tc : Thread nD τ).loc main_v18_0) = EdgeNet.edgeF (rows (m ((c.tc : Thread nD τ).loc main_arg0)) (m ((c.tc : Thread nD τ).loc main_arg1))) (rows (m ((c.tc : Thread nD τ).loc main_arg0)) (m ((c.tc : Thread nD τ).loc main_arg2))) (m ((c.tc : Thread nD τ).loc main_arg3))
      ∧ r.2.mem ((c.tc : Thread nD τ).loc main_v18_1) = EdgeNet.attnF (EdgeNet.edgeF (rows (m ((c.tc : Thread nD τ).loc main_arg0)) (m ((c.tc : Thread nD τ).loc main_arg1))) (rows (m ((c.tc : Thread nD τ).loc main_arg0)) (m ((c.tc : Thread nD τ).loc main_arg2))) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      (h c).1.trans ((final4 m c).trans (by rw [srcArr_eq m c, dstArr_eq m c, wArr_eq m c, GE_eq])),
      (h c).2.1.trans ((final5 m c).trans (by rw [srcArr_eq m c, dstArr_eq m c, aArr_eq m c, GA_eq, wArr_eq m c, GE_eq])),
      (h c).2.2⟩)
    (Cert.KernelIdeal.Value.run_blocks m ρ)

end Cert.KernelIdeal.EdgeValue

end
-- ==== Proof.RefRun.lean ====
/-
  The reference program's run, read back.

  Its entry function is a straight line of thirty-two host operations once the three functions it calls (the
  rectification, the leaky rectification and the selection inside it) are unfolded at their call sites: the two row
  gathers (each index array first wrapped, a negative index counting from the end), their concatenation along the
  feature axis, the product with the edge weights contracted over the 256 feature positions, the maximum with zero, the
  product with the attention weights contracted over the 128 outputs, and the selection between that logit and the
  slope times it on the test `0 ≤ logit`. Every weakly fair execution ends, the two results holding those
  operations' composition applied to the arguments (`edgeT`, `attnT`) and the arguments unchanged.
-/
import proofs.«136358_j712964571355_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ### The results as functions of the arguments -/

/-- Node rows taken at an index array: `50000` is added to a negative index, then whole rows are gathered. -/
def rows (nf : FVec F S50000x128 .f32) (idx : IVec S1000000 32) : FVec F S1000000x128 .f32 :=
  Host.gather gather_S50000x128_S1000000x1_S1000000x128_1_0_n_n_0_1_1128 nf
    (broadcastInDim S1000000x1 ![0] bcast_S1000000_S1000000x1_0
      (select (cmpi .slt idx (broadcastInDim S1000000 ![] bcast_S_S1000000 (constantI S_ 32 0#32)))
        (addi idx (broadcastInDim S1000000 ![] bcast_S_S1000000 (constantI S_ 32 50000#32))) idx))

/-- The edge layer: the concatenated rows times the edge weights, contracted over the feature positions, then the
    maximum with zero. -/
def edgeT (nf : FVec F S50000x128 .f32) (i₁ i₂ : IVec S1000000 32) (W : FVec F S128x256 .f32) : FVec F S1000000x128 .f32 :=
  maximumf
    (Host.dotGeneral dot_S1000000x256_S128x256_S1000000x128_1_1_0_0_n_n none
      (concatenate S1000000x256 1 [⟨S1000000x128, rows nf i₁⟩, ⟨S1000000x128, rows nf i₂⟩]
        concatenates_S1000000x128_S1000000x128_S1000000x256_d1) W)
    (broadcastInDim S1000000x128 ![] bcast_S_S1000000x128 (constant S_ .f32 0x00000000#32))

/-- The attention logits: the edge layer times the attention weights, contracted over the outputs. -/
def logitT (E : FVec F S1000000x128 .f32) (A : FVec F S1x128 .f32) : FVec F S1000000x1 .f32 :=
  Host.dotGeneral dot_S1000000x128_S1x128_S1000000x1_1_1_0_0_n_n none E A

/-- The attention factor: the logit where it is at least zero, the slope times it elsewhere. -/
def attnT (E : FVec F S1000000x128 .f32) (A : FVec F S1x128 .f32) : FVec F S1000000x1 .f32 :=
  select (cmpf .oge (logitT E A) (broadcastInDim S1000000x1 ![] bcast_S_S1000000x1 (constant S_ .f32 0x00000000#32)))
    (logitT E A)
    (mulf (broadcastInDim S1000000x1 ![] bcast_S_S1000000x1 (id (constant S_ .f32 0x3C23D70A#32))) (logitT E A))

/-! ### The entry function as a list of operations -/

/-- The thirty-two operations, in order, the called functions' operations at their call sites over the calls'
    buffers. -/
abbrev ops : List (HloOp τ sig (Elt F)) :=
  [ nullary main_c (constantI S_ 32 0#32),
    unary main_c main_v0 (broadcastInDim S1000000 ![] bcast_S_S1000000 : (⟨S_, .i32⟩ : BufTy).Contents (Elt F) → (⟨S1000000, .i32⟩ : BufTy).Contents (Elt F)),
    binary main_arg1 main_v0 main_v1 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 50000#32),
    unary main_c_0 main_v2 (broadcastInDim S1000000 ![] bcast_S_S1000000 : (⟨S_, .i32⟩ : BufTy).Contents (Elt F) → (⟨S1000000, .i32⟩ : BufTy).Contents (Elt F)),
    binary main_arg1 main_v2 main_v3 (addi : (⟨S1000000, .i32⟩ : BufTy).Contents (Elt F) → (⟨S1000000, .i32⟩ : BufTy).Contents (Elt F) → (⟨S1000000, .i32⟩ : BufTy).Contents (Elt F)),
    ternary main_v1 main_v3 main_arg1 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v4 main_v5 (broadcastInDim S1000000x1 ![0] bcast_S1000000_S1000000x1_0 : (⟨S1000000, .i32⟩ : BufTy).Contents (Elt F) → (⟨S1000000x1, .i32⟩ : BufTy).Contents (Elt F)),
    binary main_arg0 main_v5 main_v6 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    nullary main_c_1 (constantI S_ 32 0#32),
    unary main_c_1 main_v7 (broadcastInDim S1000000 ![] bcast_S_S1000000 : (⟨S_, .i32⟩ : BufTy).Contents (Elt F) → (⟨S1000000, .i32⟩ : BufTy).Contents (Elt F)),
    binary main_arg2 main_v7 main_v8 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 50000#32),
    unary main_c_2 main_v9 (broadcastInDim S1000000 ![] bcast_S_S1000000 : (⟨S_, .i32⟩ : BufTy).Contents (Elt F) → (⟨S1000000, .i32⟩ : BufTy).Contents (Elt F)),
    binary main_arg2 main_v9 main_v10 (addi : (⟨S1000000, .i32⟩ : BufTy).Contents (Elt F) → (⟨S1000000, .i32⟩ : BufTy).Contents (Elt F) → (⟨S1000000, .i32⟩ : BufTy).Contents (Elt F)),
    ternary main_v8 main_v10 main_arg2 main_v11 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v11 main_v12 (broadcastInDim S1000000x1 ![0] bcast_S1000000_S1000000x1_0 : (⟨S1000000, .i32⟩ : BufTy).Contents (Elt F) → (⟨S1000000x1, .i32⟩ : BufTy).Contents (Elt F)),
    binary main_arg0 main_v12 main_v13 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    binary main_v6 main_v13 main_v14 ((fun a b => concatenate S1000000x256 1 [⟨S1000000x128, a⟩, ⟨S1000000x128, b⟩] concatenates_S1000000x128_S1000000x128_S1000000x256_d1) : (⟨S1000000x128, .f32⟩ : BufTy).Contents (Elt F) → (⟨S1000000x128, .f32⟩ : BufTy).Contents (Elt F) → (⟨S1000000x256, .f32⟩ : BufTy).Contents (Elt F)),
    binary main_v14 main_arg3 main_v15 ((fun l r => Host.dotGeneral dot_S1000000x256_S128x256_S1000000x128_1_1_0_0_n_n none l r) : (⟨S1000000x256, .f32⟩ : BufTy).Contents (Elt F) → (⟨S128x256, .f32⟩ : BufTy).Contents (Elt F) → (⟨S1000000x128, .f32⟩ : BufTy).Contents (Elt F)),
    TRef.nullary main_call0.cst (constant S_ .f32 0x00000000#32),
    TRef.unary main_call0.cst main_call0.v0 (broadcastInDim S1000000x128 ![] bcast_S_S1000000x128),
    TRef.binary (.of main_v15) main_call0.v0 main_call0.v1 maximumf,
    binary main_v16 main_arg4 main_v17 ((fun l r => Host.dotGeneral dot_S1000000x128_S1x128_S1000000x1_1_1_0_0_n_n none l r) : (⟨S1000000x128, .f32⟩ : BufTy).Contents (Elt F) → (⟨S1x128, .f32⟩ : BufTy).Contents (Elt F) → (⟨S1000000x1, .f32⟩ : BufTy).Contents (Elt F)),
    nullary main_cst (constant S_ .f32 0x3C23D70A#32),
    TRef.nullary main_call1.cst (constant S_ .f32 0x00000000#32),
    TRef.unary main_call1.cst main_call1.v0 (broadcastInDim S1000000x1 ![] bcast_S_S1000000x1),
    TRef.binary (.of main_v17) main_call1.v0 main_call1.v1 (cmpf .oge),
    TRef.unary (.of main_cst) main_call1.v2 id,
    TRef.unary main_call1.v2 main_call1.v3 (broadcastInDim S1000000x1 ![] bcast_S_S1000000x1),
    TRef.binary main_call1.v3 (.of main_v17) main_call1.v4 mulf,
    TRef.ternary main_call1.v1 (.of main_v17) main_call1.v4 main_call1.call0.v0 select ]

set_option maxRecDepth 1024 in
/-- The entry function is that straight line: the called functions unfolded and sequencing reassociated. -/
theorem main_eq (c : Dev nD) : main (F := F) c = seq ops := by
  simp only [main, fn_relu.body, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-! ### The fold of the operations at the results and at the arguments -/

attribute [local irreducible] Host.gather concatenate in
set_option maxRecDepth 8192 in
/-- The first result's buffer ends at the edge layer of the arguments. -/
theorem edge_eq (V : Valuation τ sig (Elt F)) :
    after ops V (main_v16 : DevRef τ sig)
      = edgeT (V (main_arg0 : DevRef τ sig)) (V (main_arg1 : DevRef τ sig)) (V (main_arg2 : DevRef τ sig)) (V (main_arg3 : DevRef τ sig)) := by
  simp only [after_cons, after_nil]
  rfl

attribute [local irreducible] Host.gather concatenate in
set_option maxRecDepth 8192 in
/-- The second result's buffer ends at the attention factor of the edge layer of the arguments. -/
theorem attn_eq (V : Valuation τ sig (Elt F)) :
    after ops V (main_v18 : DevRef τ sig)
      = attnT (edgeT (V (main_arg0 : DevRef τ sig)) (V (main_arg1 : DevRef τ sig)) (V (main_arg2 : DevRef τ sig)) (V (main_arg3 : DevRef τ sig)))
          (V (main_arg4 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl

/-! ### The run -/

/-- On every device, for any float values, from any memory with zero counters: every weakly fair execution of the
    entry function terminates with the two results at `edgeT` and `attnT` of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = edgeT (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v18) = attnT (edgeT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v16).trans (edge_eq _), (h c main_v18).trans (attn_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.HostRun

end
-- ==== Proof.RefValue.lean ====
/-
  The reference's two results, read at an entry, are the edge network's functions.

  The host's contraction of the concatenated rows with the edge weights over the feature axis is, at entry `(e, o)`,
  the sum over the 256 positions `k` of `feat e k * W o k`; position `k` of the concatenation is the source row below
  128 and the destination row from 128 on; the maximum with the splat zero is the maximum with `0`. The contraction
  with the attention weights is the sum over the 128 outputs, and the selection on `0 ≤ logit` between the logit and
  the slope times it is the leaky rectification (the law of the specification).
-/
import proofs.«136358_j712964571355_1_alg».proof.Proof.RefRun
import proofs.«136358_j712964571355_1_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.HostRun Idealize.ShloMosaic Idealize.ShloMosaic.ValueIdx

/-! ### The two contractions' index maps, coordinate by coordinate -/

abbrev E₁ := dot_S1000000x256_S128x256_S1000000x128_1_1_0_0_n_n
abbrev E₂ := dot_S1000000x128_S1x128_S1000000x1_1_1_0_0_n_n

theorem lhsE₁_0 (j : S1000000x128.Idx) (k : E₁.contr.Idx) : (E₁.lhsIdx j k 0 : ℕ) = j 0 := by
  simp [DotDims.lhsIdx, E₁, dot_S1000000x256_S128x256_S1000000x128_1_1_0_0_n_n]; rfl
theorem lhsE₁_1 (j : S1000000x128.Idx) (k : E₁.contr.Idx) : (E₁.lhsIdx j k 1 : ℕ) = k ⟨0, by decide⟩ := by
  simp [DotDims.lhsIdx, E₁, dot_S1000000x256_S128x256_S1000000x128_1_1_0_0_n_n]; rfl
theorem rhsE₁_0 (j : S1000000x128.Idx) (k : E₁.contr.Idx) : (E₁.rhsIdx j k 0 : ℕ) = j 1 := by
  simp [DotDims.rhsIdx, E₁, dot_S1000000x256_S128x256_S1000000x128_1_1_0_0_n_n]; rfl
theorem rhsE₁_1 (j : S1000000x128.Idx) (k : E₁.contr.Idx) : (E₁.rhsIdx j k 1 : ℕ) = k ⟨0, by decide⟩ := by
  simp [DotDims.rhsIdx, E₁, dot_S1000000x256_S128x256_S1000000x128_1_1_0_0_n_n]; rfl

theorem lhsE₂_0 (j : S1000000x1.Idx) (k : E₂.contr.Idx) : (E₂.lhsIdx j k 0 : ℕ) = j 0 := by
  simp [DotDims.lhsIdx, E₂, dot_S1000000x128_S1x128_S1000000x1_1_1_0_0_n_n]; rfl
theorem lhsE₂_1 (j : S1000000x1.Idx) (k : E₂.contr.Idx) : (E₂.lhsIdx j k 1 : ℕ) = k ⟨0, by decide⟩ := by
  simp [DotDims.lhsIdx, E₂, dot_S1000000x128_S1x128_S1000000x1_1_1_0_0_n_n]; rfl
theorem rhsE₂_0 (j : S1000000x1.Idx) (k : E₂.contr.Idx) : (E₂.rhsIdx j k 0 : ℕ) = j 1 := by
  have h1 := idx2_lt1 j
  have h3 : (E₂.rhsIdx j k 0 : ℕ) < 1 := (E₂.rhsIdx j k 0).isLt
  omega
theorem rhsE₂_1 (j : S1000000x1.Idx) (k : E₂.contr.Idx) : (E₂.rhsIdx j k 1 : ℕ) = k ⟨0, by decide⟩ := by
  simp [DotDims.rhsIdx, E₂, dot_S1000000x128_S1x128_S1000000x1_1_1_0_0_n_n]; rfl

/-- The first contraction at entry `(e, o)`: the sum over the 256 positions `k` of `L (e, k) * R (o, k)`. -/
theorem dot₁_apply (L : FVec Ideal S1000000x256 .f32) (R : FVec Ideal S128x256 .f32) (e : Fin 1000000) (o : Fin 128) :
    Host.dotGeneral E₁ none L R (ix2 e o) = ∑ k : Fin 256, L (ix2 e k) * R (ix2 o k) := by
  simp only [Host.dotGeneral]
  rw [Ideal.dotGeneral_apply, ← Equiv.sum_comp (contrEquiv1 E₁ 256 rfl rfl).symm]
  refine Finset.sum_congr rfl fun k _ => ?_
  congr 2
  · funext a
    match a with
    | ⟨0, _⟩ => exact Fin.ext (lhsE₁_0 _ _)
    | ⟨1, _⟩ => exact Fin.ext ((lhsE₁_1 _ _).trans (contrEquiv1_symm_val E₁ 256 rfl rfl k))
  · funext a
    match a with
    | ⟨0, _⟩ => exact Fin.ext (rhsE₁_0 _ _)
    | ⟨1, _⟩ => exact Fin.ext ((rhsE₁_1 _ _).trans (contrEquiv1_symm_val E₁ 256 rfl rfl k))

/-- The second contraction at entry `(e, 0)`: the sum over the 128 outputs `k` of `L (e, k) * R (0, k)`. -/
theorem dot₂_apply (L : FVec Ideal S1000000x128 .f32) (R : FVec Ideal S1x128 .f32) (e : Fin 1000000) (z : Fin 1) :
    Host.dotGeneral E₂ none L R (ix2 e z) = ∑ k : Fin 128, L (ix2 e k) * R (ix2 z k) := by
  simp only [Host.dotGeneral]
  rw [Ideal.dotGeneral_apply, ← Equiv.sum_comp (contrEquiv1 E₂ 128 rfl rfl).symm]
  refine Finset.sum_congr rfl fun k _ => ?_
  congr 2
  · funext a
    match a with
    | ⟨0, _⟩ => exact Fin.ext (lhsE₂_0 _ _)
    | ⟨1, _⟩ => exact Fin.ext ((lhsE₂_1 _ _).trans (contrEquiv1_symm_val E₂ 128 rfl rfl k))
  · funext a
    match a with
    | ⟨0, _⟩ => exact Fin.ext (rhsE₂_0 _ _)
    | ⟨1, _⟩ => exact Fin.ext ((rhsE₂_1 _ _).trans (contrEquiv1_symm_val E₂ 128 rfl rfl k))

/-! ### The concatenated rows at a position -/

/-- The concatenation of the two gathered arrays along the feature axis, read at `(e, k)`. -/
theorem concat_apply (x0 x1 : FVec Ideal S1000000x128 .f32) (e : Fin 1000000) (k : Fin 256) :
    concatenate S1000000x256 1 [⟨S1000000x128, x0⟩, ⟨S1000000x128, x1⟩] concatenates_S1000000x128_S1000000x128_S1000000x256_d1 (ix2 e k)
      = EdgeNet.featAt x0 x1 e k := by
  unfold EdgeNet.featAt
  by_cases h : k.val < 128
  · rw [dif_pos h]
    exact concatenate_pair_apply_left 1 x0 x1 _ (ix2 e k) rfl (ix2 e ⟨k.val, h⟩)
      (fun b => match b with | ⟨0, _⟩ => rfl | ⟨1, _⟩ => rfl)
  · rw [dif_neg h]
    exact concatenate_pair_apply_right 1 x0 x1 _ (ix2 e k) rfl rfl (ix2 e ⟨k.val - 128, by have := k.isLt; omega⟩)
      (fun b hb => match b, hb with | ⟨0, _⟩, _ => rfl | ⟨1, _⟩, hb => (hb (Fin.ext rfl)).elim)
      (by show (k.val - 128) + 128 = k.val; omega)

/-! ### The two results -/

/-- The reference's first result is the edge layer of the gathered rows. -/
theorem edgeT_eq (nf : FVec Ideal S50000x128 .f32) (i₁ i₂ : IVec S1000000 32) (W : FVec Ideal S128x256 .f32) :
    edgeT nf i₁ i₂ W = EdgeNet.edgeF (rows nf i₁) (rows nf i₂) W := by
  funext i
  obtain ⟨e, o, rfl⟩ : ∃ (e : Fin 1000000) (o : Fin 128), i = ix2 e o := ⟨i 0, i 1, eq_ix2 i⟩
  unfold edgeT EdgeNet.edgeF
  rw [maximumf_apply, broadcastInDim_scalar_apply, constant_apply, Ideal.ofBits_zero_f32, dot₁_apply]
  refine congrArg (max · 0) (Finset.sum_congr rfl fun k _ => ?_)
  rw [concat_apply]

/-- The attention logit at an edge is the specification's. -/
theorem logitT_apply (E : FVec Ideal S1000000x128 .f32) (A : FVec Ideal S1x128 .f32) (e : Fin 1000000) (z : Fin 1) :
    logitT E A (ix2 e z) = EdgeNet.attnPre E A e := by
  unfold logitT EdgeNet.attnPre
  rw [dot₂_apply]
  refine Finset.sum_congr rfl fun o _ => ?_
  rw [Subsingleton.elim z 0]

/-- The reference's second result is the attention factor of its first. -/
theorem attnT_eq (E : FVec Ideal S1000000x128 .f32) (A : FVec Ideal S1x128 .f32) :
    attnT E A = EdgeNet.attnF E A := by
  funext i
  obtain ⟨e, z, rfl⟩ : ∃ (e : Fin 1000000) (z : Fin 1), i = ix2 e z := ⟨i 0, i 1, eq_ix2 i⟩
  unfold attnT EdgeNet.attnF
  rw [select_apply, cmpf_apply, mulf_apply, broadcastInDim_scalar_apply, broadcastInDim_scalar_apply, constant_apply,
    Ideal.ofBits_zero_f32, logitT_apply]
  exact EdgeNet.leaky_ge_left _

end Cert.ReferenceIdeal.RefValue

end
-- ==== Proof.lean ====
/- The certificate of the edge network kernel against its reference.

   Both programs gather the source and destination node rows of every edge (the same host operations on the same
   arguments), and compute `e = max 0 (feat · Wᵀ)` and the leaky rectification of `e · Aᵀ`. The kernel does it 5000 edges
   at a time with the weights transposed beforehand, contracting on the matrix unit into a zero accumulator; the
   reference contracts the untransposed weights on the host. Over the extended reals both contractions are the same sums
   of the same products, the format changes are the identity, and the two spellings of the leaky rectification
   (`0 < a` with the slope on the right, `0 ≤ a` with the slope on the left) agree because they differ only at `a = 0`.
   No finiteness of the inputs is used. The frames of the two kernel programs are the generated ones; the reference's
   frame is its run with the results dropped; the idealization rewrote nothing, so `preserves` is `True`. -/
import proofs.«136358_j712964571355_1_alg».proof.Defs
import proofs.«136358_j712964571355_1_alg».proof.Proof.Gen.Kernel
import proofs.«136358_j712964571355_1_alg».proof.Proof.Gen.Kernel.Skeleton
import proofs.«136358_j712964571355_1_alg».proof.Proof.Gen.Kernel.Launch
import proofs.«136358_j712964571355_1_alg».proof.Proof.Gen.Kernel.Points
import proofs.«136358_j712964571355_1_alg».proof.Proof.Gen.Kernel.Frame
import proofs.«136358_j712964571355_1_alg».proof.Proof.Gen.KernelIdeal
import proofs.«136358_j712964571355_1_alg».proof.Proof.Gen.KernelIdeal.Skeleton
import proofs.«136358_j712964571355_1_alg».proof.Proof.Gen.KernelIdeal.Launch
import proofs.«136358_j712964571355_1_alg».proof.Proof.Gen.KernelIdeal.Points
import proofs.«136358_j712964571355_1_alg».proof.Proof.Gen.KernelIdeal.Frame
import proofs.«136358_j712964571355_1_alg».proof.Proof.Gen.ReferenceIdeal
import proofs.«136358_j712964571355_1_alg».proof.Proof.Gen.Pre_finite_inputs
import proofs.«136358_j712964571355_1_alg».proof.Proof.KernelValue
import proofs.«136358_j712964571355_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.HostRun.run (F := Ideal) m ρ)

/-- The two programs gather the node rows by the same operations. -/
theorem rows_eq (nf : FVec Ideal Cert.KernelIdeal.S50000x128 .f32) (idx : IVec Cert.KernelIdeal.S1000000 32) :
    Cert.ReferenceIdeal.HostRun.rows (F := Ideal) nf idx = Cert.KernelIdeal.EdgeValue.rows nf idx := rfl

/-- Both runs end with the first result at the edge layer of the gathered rows and the second at its attention
    factor: the kernel's by its blocks (`EdgeValue.run`), the reference's by its operations read at an entry. -/
theorem algebraic : Cert.algebraic_KernelIdeal_ReferenceIdeal := by
  intro m ρ m' ρ' _ hagree
  refine ⟨_, _, Cert.KernelIdeal.EdgeValue.run m ρ, ?_⟩
  refine (θ_run Cert.ReferenceIdeal.defs _ _).mono (fun _ h c => ?_) (Cert.ReferenceIdeal.HostRun.run (F := Ideal) m' ρ')
  obtain ⟨a0, a1, a2, a3, a4⟩ := hagree c
  refine ⟨(h c).1.trans ?_, (h c).2.1.trans ?_, (h c).2.2⟩
  · rw [a0, a1, a2, a3, Cert.ReferenceIdeal.RefValue.edgeT_eq, rows_eq, rows_eq]
  · rw [a0, a1, a2, a3, a4, Cert.ReferenceIdeal.RefValue.attnT_eq, Cert.ReferenceIdeal.RefValue.edgeT_eq, rows_eq, rows_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
